-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x112x16x44 : Shape := ⟨4, ![6, 112, 16, 44]⟩
abbrev S6x32x16x44 : Shape := ⟨4, ![6, 32, 16, 44]⟩
abbrev S1x6x112x16x44x2 : Shape := ⟨6, ![1, 6, 112, 16, 44, 2]⟩
abbrev S_ : Shape := ⟨0, ![]⟩

class Facts : Prop where
  bcast_S_S6x112x16x44 : S_.BroadcastsInDim S6x112x16x44 (![] : Fin 0 → Fin S6x112x16x44.rank)
  reducesTo_S6x112x16x44_S_d0_1_2_3 : S6x112x16x44.ReducesTo [0, 1, 2, 3] S_
  h_S_ : 0 < S_.numel
  bcast_S_S6x32x16x44 : S_.BroadcastsInDim S6x32x16x44 (![] : Fin 0 → Fin S6x32x16x44.rank)
  reducesTo_S6x32x16x44_S_d0_1_2_3 : S6x32x16x44.ReducesTo [0, 1, 2, 3] S_

variable [Facts]

def fn {F : FTy → Type} [FloatOps F] (main_arg0 : FVec F S6x112x16x44 .f32) (main_arg1 : FVec F S6x32x16x44 .f32) (main_arg2 : IVec S1x6x112x16x44x2 32) : IVec S_ 1 :=
  let main_v0 : FVec F S6x112x16x44 .f32 := Host.absf main_arg0
  let main_cst : FVec F S_ .f32 := constant S_ .f32 0x7F800000#32
  let main_v1 : FVec F S6x112x16x44 .f32 := broadcastInDim S6x112x16x44 ![] bcast_S_S6x112x16x44 main_cst
  let main_v2 : IVec S6x112x16x44 1 := cmpf .olt main_v0 main_v1
  let main_c : IVec S_ 1 := constantI S_ 1 1#1
  let main_v3 : IVec S_ 1 := (fun x v => Host.reduce IntOp.andi x v reducesTo_S6x112x16x44_S_d0_1_2_3 h_S_) main_v2 main_c
  let main_v4 : FVec F S6x32x16x44 .f32 := Host.absf main_arg1
  let main_cst_0 : FVec F S_ .f32 := constant S_ .f32 0x7F800000#32
  let main_v5 : FVec F S6x32x16x44 .f32 := broadcastInDim S6x32x16x44 ![] bcast_S_S6x32x16x44 main_cst_0
  let main_v6 : IVec S6x32x16x44 1 := cmpf .olt main_v4 main_v5
  let main_c_1 : IVec S_ 1 := constantI S_ 1 1#1
  let main_v7 : IVec S_ 1 := (fun x v => Host.reduce IntOp.andi x v reducesTo_S6x32x16x44_S_d0_1_2_3 h_S_) main_v6 main_c_1
  let main_v8 : IVec S_ 1 := andi main_v3 main_v7
  main_v8
-- ==== Kernel.lean ====
abbrev S6x112x16x44 : Shape := ⟨4, ![6, 112, 16, 44]⟩
abbrev S6x32x16x44 : Shape := ⟨4, ![6, 32, 16, 44]⟩
abbrev S1x6x112x16x44x2 : Shape := ⟨6, ![1, 6, 112, 16, 44, 2]⟩
abbrev S_ : Shape := ⟨0, ![]⟩
abbrev S6x16x44 : Shape := ⟨3, ![6, 16, 44]⟩
abbrev S6x1x16x44 : Shape := ⟨4, ![6, 1, 16, 44]⟩
abbrev S6x112x704 : Shape := ⟨3, ![6, 112, 704]⟩
abbrev S6x16x44x32 : Shape := ⟨4, ![6, 16, 44, 32]⟩
abbrev S6x704x32 : Shape := ⟨3, ![6, 704, 32]⟩
abbrev S6x112x704x32 : Shape := ⟨4, ![6, 112, 704, 32]⟩
abbrev S1x16x704 : Shape := ⟨3, ![1, 16, 704]⟩
abbrev S1x704x32 : Shape := ⟨3, ![1, 704, 32]⟩
abbrev S1x16x704x32 : Shape := ⟨4, ![1, 16, 704, 32]⟩
abbrev S1x16x704x1 : Shape := ⟨4, ![1, 16, 704, 1]⟩
abbrev S1x1x704x32 : Shape := ⟨4, ![1, 1, 704, 32]⟩
abbrev S1x473088x32 : Shape := ⟨3, ![1, 473088, 32]⟩
abbrev S1x6x112x16x44x1 : Shape := ⟨6, ![1, 6, 112, 16, 44, 1]⟩
abbrev S1x6x112x16x44 : Shape := ⟨5, ![1, 6, 112, 16, 44]⟩
abbrev S1x473088 : Shape := ⟨2, ![1, 473088]⟩
abbrev S1 : Shape := ⟨1, ![1]⟩
abbrev S1x1 : Shape := ⟨2, ![1, 1]⟩
abbrev S473088 : Shape := ⟨1, ![473088]⟩
abbrev S473088x32 : Shape := ⟨2, ![473088, 32]⟩
abbrev S16384x32 : Shape := ⟨2, ![16384, 32]⟩
abbrev S473088x1 : Shape := ⟨2, ![473088, 1]⟩
abbrev S1x128x128x32 : Shape := ⟨4, ![1, 128, 128, 32]⟩
abbrev S1x32x128x128 : Shape := ⟨4, ![1, 32, 128, 128]⟩

abbrev nBuf : Space → Nat
  | .hbm => 47
  | .vmem => 6
  | .smem => 0
  | _ => 0

abbrev bufTy : (tb : Table) → Fin (tcTables nBuf tb) → BufTy
  | .hbm, ⟨0, _⟩ => ⟨S6x112x16x44, .f32⟩
  | .hbm, ⟨1, _⟩ => ⟨S6x32x16x44, .f32⟩
  | .hbm, ⟨2, _⟩ => ⟨S1x6x112x16x44x2, .i32⟩
  | .hbm, ⟨3, _⟩ => ⟨S_, .f32⟩
  | .hbm, ⟨4, _⟩ => ⟨S6x16x44, .f32⟩
  | .hbm, ⟨5, _⟩ => ⟨S_, .f32⟩
  | .hbm, ⟨6, _⟩ => ⟨S6x16x44, .f32⟩
  | .hbm, ⟨7, _⟩ => ⟨S6x16x44, .f32⟩
  | .hbm, ⟨8, _⟩ => ⟨S6x1x16x44, .f32⟩
  | .hbm, ⟨9, _⟩ => ⟨S6x112x16x44, .f32⟩
  | .hbm, ⟨10, _⟩ => ⟨S6x112x16x44, .f32⟩
  | .hbm, ⟨11, _⟩ => ⟨S6x112x16x44, .f32⟩
  | .hbm, ⟨12, _⟩ => ⟨S_, .f32⟩
  | .hbm, ⟨13, _⟩ => ⟨S6x16x44, .f32⟩
  | .hbm, ⟨14, _⟩ => ⟨S6x1x16x44, .f32⟩
  | .hbm, ⟨15, _⟩ => ⟨S6x112x16x44, .f32⟩
  | .hbm, ⟨16, _⟩ => ⟨S6x112x16x44, .f32⟩
  | .hbm, ⟨17, _⟩ => ⟨S6x112x704, .f32⟩
  | .hbm, ⟨18, _⟩ => ⟨S6x16x44x32, .f32⟩
  | .hbm, ⟨19, _⟩ => ⟨S6x704x32, .f32⟩
  | .hbm, ⟨20, _⟩ => ⟨S6x112x704x32, .f32⟩
  | .hbm, ⟨21, _⟩ => ⟨S1x473088x32, .f32⟩
  | .hbm, ⟨22, _⟩ => ⟨S1x6x112x16x44x1, .i32⟩
  | .hbm, ⟨23, _⟩ => ⟨S1x6x112x16x44, .i32⟩
  | .hbm, ⟨24, _⟩ => ⟨S1x473088, .i32⟩
  | .hbm, ⟨25, _⟩ => ⟨S1x6x112x16x44x1, .i32⟩
  | .hbm, ⟨26, _⟩ => ⟨S1x6x112x16x44, .i32⟩
  | .hbm, ⟨27, _⟩ => ⟨S1x473088, .i32⟩
  | .hbm, ⟨28, _⟩ => ⟨S1, .i32⟩
  | .hbm, ⟨29, _⟩ => ⟨S1x1, .i32⟩
  | .hbm, ⟨30, _⟩ => ⟨S_, .i32⟩
  | .hbm, ⟨31, _⟩ => ⟨S1x1, .i32⟩
  | .hbm, ⟨32, _⟩ => ⟨S1x1, .i32⟩
  | .hbm, ⟨33, _⟩ => ⟨S_, .i32⟩
  | .hbm, ⟨34, _⟩ => ⟨S1x473088, .i32⟩
  | .hbm, ⟨35, _⟩ => ⟨S1x473088, .i32⟩
  | .hbm, ⟨36, _⟩ => ⟨S1x473088, .i32⟩
  | .hbm, ⟨37, _⟩ => ⟨S1x473088, .i32⟩
  | .hbm, ⟨38, _⟩ => ⟨S1x473088, .i32⟩
  | .hbm, ⟨39, _⟩ => ⟨S473088, .i32⟩
  | .hbm, ⟨40, _⟩ => ⟨S473088x32, .f32⟩
  | .hbm, ⟨41, _⟩ => ⟨S_, .f32⟩
  | .hbm, ⟨42, _⟩ => ⟨S16384x32, .f32⟩
  | .hbm, ⟨43, _⟩ => ⟨S473088x1, .i32⟩
  | .hbm, ⟨44, _⟩ => ⟨S16384x32, .f32⟩
  | .hbm, ⟨45, _⟩ => ⟨S1x128x128x32, .f32⟩
  | .hbm, ⟨46, _⟩ => ⟨S1x32x128x128, .f32⟩
  | .local _ .vmem, ⟨0, _⟩ => ⟨S1x16x704, .f32⟩
  | .local _ .vmem, ⟨1, _⟩ => ⟨S1x16x704, .f32⟩
  | .local _ .vmem, ⟨2, _⟩ => ⟨S1x704x32, .f32⟩
  | .local _ .vmem, ⟨3, _⟩ => ⟨S1x704x32, .f32⟩
  | .local _ .vmem, ⟨4, _⟩ => ⟨S1x16x704x32, .f32⟩
  | .local _ .vmem, ⟨5, _⟩ => ⟨S1x16x704x32, .f32⟩
  | _, _ => ⟨S6x112x16x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x704x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S6x112x16x44_S6x16x44_d1 : S6x112x16x44.ReducesTo [1] S6x16x44
  h_S_ : 0 < S_.numel
  bcast_S_S6x16x44 : S_.BroadcastsInDim S6x16x44 (![] : Fin 0 → Fin S6x16x44.rank)
  bcast_S6x16x44_S6x1x16x44_0_2_3 : S6x16x44.BroadcastsInDim S6x1x16x44 (![0, 2, 3] : Fin 3 → Fin S6x1x16x44.rank)
  bcast_S6x1x16x44_S6x112x16x44_0_1_2_3 : S6x1x16x44.BroadcastsInDim S6x112x16x44 (![0, 1, 2, 3] : Fin 4 → Fin S6x112x16x44.rank)
  shapeCasts_S6x112x16x44_S6x112x704 : S6x112x16x44.ShapeCasts S6x112x704
  transposes_S6x32x16x44_S6x16x44x32_0_2_3_1 : S6x32x16x44.Transposes [0, 2, 3, 1] S6x16x44x32
  shapeCasts_S6x16x44x32_S6x704x32 : S6x16x44x32.ShapeCasts S6x704x32
  inb_S1x16x704_S1x16x704_0_0_0 : ∀ a, (![0, 0, 0] : Fin 3 → Nat) a + S1x16x704.size a ≤ S1x16x704.size a
  h_S1x16x704 : 0 < S1x16x704.numel
  shapeCasts_S1x16x704_S1x16x704 : S1x16x704.ShapeCasts S1x16x704
  inb_S1x704x32_S1x704x32_0_0_0 : ∀ a, (![0, 0, 0] : Fin 3 → Nat) a + S1x704x32.size a ≤ S1x704x32.size a
  h_S1x704x32 : 0 < S1x704x32.numel
  shapeCasts_S1x704x32_S1x704x32 : S1x704x32.ShapeCasts S1x704x32
  shapeCasts_S1x16x704_S1x16x704x1 : S1x16x704.ShapeCasts S1x16x704x1
  shapeCasts_S1x704x32_S1x1x704x32 : S1x704x32.ShapeCasts S1x1x704x32
  broadcasts_S1x16x704x1_S1x16x704x32 : S1x16x704x1.Broadcasts S1x16x704x32
  broadcasts_S1x1x704x32_S1x16x704x32 : S1x1x704x32.Broadcasts S1x16x704x32
  inb_S1x16x704x32_S1x16x704x32_0_0_0_0 : ∀ a, (![0, 0, 0, 0] : Fin 4 → Nat) a + S1x16x704x32.size a ≤ S1x16x704x32.size a
  h_S1x16x704x32 : 0 < S1x16x704x32.numel
  shapeCasts_S6x112x704x32_S1x473088x32 : S6x112x704x32.ShapeCasts S1x473088x32
  slices_S1x6x112x16x44x2_S1x6x112x16x44x1_0_0_0_0_0_0 : S1x6x112x16x44x2.Slices ![0, 0, 0, 0, 0, 0] S1x6x112x16x44x1
  shapeCasts_S1x6x112x16x44x1_S1x6x112x16x44 : S1x6x112x16x44x1.ShapeCasts S1x6x112x16x44
  shapeCasts_S1x6x112x16x44_S1x473088 : S1x6x112x16x44.ShapeCasts S1x473088
  slices_S1x6x112x16x44x2_S1x6x112x16x44x1_0_0_0_0_0_1 : S1x6x112x16x44x2.Slices ![0, 0, 0, 0, 0, 1] S1x6x112x16x44x1
  bcast_S1_S1x1_0 : S1.BroadcastsInDim S1x1 (![0] : Fin 1 → Fin S1x1.rank)
  bcast_S_S1x1 : S_.BroadcastsInDim S1x1 (![] : Fin 0 → Fin S1x1.rank)
  bcast_S_S1x473088 : S_.BroadcastsInDim S1x473088 (![] : Fin 0 → Fin S1x473088.rank)
  bcast_S1x1_S1x473088_0_1 : S1x1.BroadcastsInDim S1x473088 (![0, 1] : Fin 2 → Fin S1x473088.rank)
  shapeCasts_S1x473088_S473088 : S1x473088.ShapeCasts S473088
  shapeCasts_S1x473088x32_S473088x32 : S1x473088x32.ShapeCasts S473088x32
  bcast_S_S16384x32 : S_.BroadcastsInDim S16384x32 (![] : Fin 0 → Fin S16384x32.rank)
  bcast_S473088_S473088x1_0 : S473088.BroadcastsInDim S473088x1 (![0] : Fin 1 → Fin S473088x1.rank)
  shapeCasts_S16384x32_S1x128x128x32 : S16384x32.ShapeCasts S1x128x128x32
  transposes_S1x128x128x32_S1x32x128x128_0_3_1_2 : S1x128x128x32.Transposes [0, 3, 1, 2] S1x32x128x128
  scatter_S16384x32_S473088x1_S473088x32_1_0_0_1_wf : ScatterDims.WF S16384x32 S473088x1 S473088x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x704.size a ≤ S6x112x704.size a
  hwx0_0 : ∀ i : grid0.Coords, EltTy.bits .f32 = 32 ∨ (Rect.block (s := S6x112x704) S1x16x704.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x704x32.size a ≤ S6x704x32.size a
  hwx0_1 : ∀ i : grid0.Coords, EltTy.bits .f32 = 32 ∨ (Rect.block (s := S6x704x32) S1x704x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x704x32.size a ≤ S6x112x704x32.size a
  hwx0_2 : ∀ i : grid0.Coords, EltTy.bits .f32 = 32 ∨ (Rect.block (s := S6x112x704x32) S1x16x704x32.size (cc0_transform_2 i) (hinb0_2 i)).WholeWords (EltTy.packing .f32)

variable [Facts₀]

def scatter_S16384x32_S473088x1_S473088x32_1_0_0_1 : ScatterDims S16384x32 S473088x1 S473088x32 where
  updateWindowDims := [1]
  insertedWindowDims := [0]
  scatterDimsToOperandDims := [0]
  indexVectorDim := 1
  wf := scatter_S16384x32_S473088x1_S473088x32_1_0_0_1_wf

abbrev win0_0 : Pipeline.Window sig grid0 :=
  Pipeline.Window.ofSpec (Memref.whole main_v11) S1x16x704.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x704x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x16x704x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x112x16x44 : Shape := ⟨4, ![6, 112, 16, 44]⟩
abbrev S6x32x16x44 : Shape := ⟨4, ![6, 32, 16, 44]⟩
abbrev S1x6x112x16x44x2 : Shape := ⟨6, ![1, 6, 112, 16, 44, 2]⟩
abbrev S_ : Shape := ⟨0, ![]⟩
abbrev S6x16x44 : Shape := ⟨3, ![6, 16, 44]⟩
abbrev S6x1x16x44 : Shape := ⟨4, ![6, 1, 16, 44]⟩
abbrev S6x16x44x32 : Shape := ⟨4, ![6, 16, 44, 32]⟩
abbrev S6x112x16x44x1 : Shape := ⟨5, ![6, 112, 16, 44, 1]⟩
abbrev S6x1x16x44x32 : Shape := ⟨5, ![6, 1, 16, 44, 32]⟩
abbrev S6x112x16x44x32 : Shape := ⟨5, ![6, 112, 16, 44, 32]⟩
abbrev S1x473088x32 : Shape := ⟨3, ![1, 473088, 32]⟩
abbrev S1x6x112x16x44x1 : Shape := ⟨6, ![1, 6, 112, 16, 44, 1]⟩
abbrev S1x6x112x16x44 : Shape := ⟨5, ![1, 6, 112, 16, 44]⟩
abbrev S1x473088 : Shape := ⟨2, ![1, 473088]⟩
abbrev S1 : Shape := ⟨1, ![1]⟩
abbrev S1x1 : Shape := ⟨2, ![1, 1]⟩
abbrev S473088 : Shape := ⟨1, ![473088]⟩
abbrev S473088x32 : Shape := ⟨2, ![473088, 32]⟩
abbrev S16384x32 : Shape := ⟨2, ![16384, 32]⟩
abbrev S473088x1 : Shape := ⟨2, ![473088, 1]⟩
abbrev S1x128x128x32 : Shape := ⟨4, ![1, 128, 128, 32]⟩
abbrev S1x32x128x128 : Shape := ⟨4, ![1, 32, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S6x112x16x44, .f32⟩
  | .hbm, ⟨1, _⟩ => ⟨S6x32x16x44, .f32⟩
  | .hbm, ⟨2, _⟩ => ⟨S1x6x112x16x44x2, .i32⟩
  | .hbm, ⟨3, _⟩ => ⟨S_, .f32⟩
  | .hbm, ⟨4, _⟩ => ⟨S6x16x44, .f32⟩
  | .hbm, ⟨5, _⟩ => ⟨S_, .f32⟩
  | .hbm, ⟨6, _⟩ => ⟨S6x16x44, .f32⟩
  | .hbm, ⟨7, _⟩ => ⟨S6x16x44, .f32⟩
  | .hbm, ⟨8, _⟩ => ⟨S6x1x16x44, .f32⟩
  | .hbm, ⟨9, _⟩ => ⟨S6x112x16x44, .f32⟩
  | .hbm, ⟨10, _⟩ => ⟨S6x112x16x44, .f32⟩
  | .hbm, ⟨11, _⟩ => ⟨S6x112x16x44, .f32⟩
  | .hbm, ⟨12, _⟩ => ⟨S_, .f32⟩
  | .hbm, ⟨13, _⟩ => ⟨S6x16x44, .f32⟩
  | .hbm, ⟨14, _⟩ => ⟨S6x1x16x44, .f32⟩
  | .hbm, ⟨15, _⟩ => ⟨S6x112x16x44, .f32⟩
  | .hbm, ⟨16, _⟩ => ⟨S6x112x16x44, .f32⟩
  | .hbm, ⟨17, _⟩ => ⟨S6x16x44x32, .f32⟩
  | .hbm, ⟨18, _⟩ => ⟨S6x112x16x44x1, .f32⟩
  | .hbm, ⟨19, _⟩ => ⟨S6x1x16x44x32, .f32⟩
  | .hbm, ⟨20, _⟩ => ⟨S6x112x16x44x32, .f32⟩
  | .hbm, ⟨21, _⟩ => ⟨S6x112x16x44x32, .f32⟩
  | .hbm, ⟨22, _⟩ => ⟨S6x112x16x44x32, .f32⟩
  | .hbm, ⟨23, _⟩ => ⟨S1x473088x32, .f32⟩
  | .hbm, ⟨24, _⟩ => ⟨S1x6x112x16x44x1, .i32⟩
  | .hbm, ⟨25, _⟩ => ⟨S1x6x112x16x44, .i32⟩
  | .hbm, ⟨26, _⟩ => ⟨S1x473088, .i32⟩
  | .hbm, ⟨27, _⟩ => ⟨S1x6x112x16x44x1, .i32⟩
  | .hbm, ⟨28, _⟩ => ⟨S1x6x112x16x44, .i32⟩
  | .hbm, ⟨29, _⟩ => ⟨S1x473088, .i32⟩
  | .hbm, ⟨30, _⟩ => ⟨S1, .i32⟩
  | .hbm, ⟨31, _⟩ => ⟨S1x1, .i32⟩
  | .hbm, ⟨32, _⟩ => ⟨S_, .i32⟩
  | .hbm, ⟨33, _⟩ => ⟨S1x1, .i32⟩
  | .hbm, ⟨34, _⟩ => ⟨S1x1, .i32⟩
  | .hbm, ⟨35, _⟩ => ⟨S_, .i32⟩
  | .hbm, ⟨36, _⟩ => ⟨S1x473088, .i32⟩
  | .hbm, ⟨37, _⟩ => ⟨S1x473088, .i32⟩
  | .hbm, ⟨38, _⟩ => ⟨S1x473088, .i32⟩
  | .hbm, ⟨39, _⟩ => ⟨S1x473088, .i32⟩
  | .hbm, ⟨40, _⟩ => ⟨S1x473088, .i32⟩
  | .hbm, ⟨41, _⟩ => ⟨S473088, .i32⟩
  | .hbm, ⟨42, _⟩ => ⟨S473088x32, .f32⟩
  | .hbm, ⟨43, _⟩ => ⟨S_, .f32⟩
  | .hbm, ⟨44, _⟩ => ⟨S16384x32, .f32⟩
  | .hbm, ⟨45, _⟩ => ⟨S473088x1, .i32⟩
  | .hbm, ⟨46, _⟩ => ⟨S16384x32, .f32⟩
  | .hbm, ⟨47, _⟩ => ⟨S1x128x128x32, .f32⟩
  | .hbm, ⟨48, _⟩ => ⟨S1x32x128x128, .f32⟩
  | _, _ => ⟨S6x112x16x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]

class Facts₀ : Prop where
  reducesTo_S6x112x16x44_S6x16x44_d1 : S6x112x16x44.ReducesTo [1] S6x16x44
  h_S_ : 0 < S_.numel
  bcast_S_S6x16x44 : S_.BroadcastsInDim S6x16x44 (![] : Fin 0 → Fin S6x16x44.rank)
  bcast_S6x16x44_S6x1x16x44_0_2_3 : S6x16x44.BroadcastsInDim S6x1x16x44 (![0, 2, 3] : Fin 3 → Fin S6x1x16x44.rank)
  bcast_S6x1x16x44_S6x112x16x44_0_1_2_3 : S6x1x16x44.BroadcastsInDim S6x112x16x44 (![0, 1, 2, 3] : Fin 4 → Fin S6x112x16x44.rank)
  transposes_S6x32x16x44_S6x16x44x32_0_2_3_1 : S6x32x16x44.Transposes [0, 2, 3, 1] S6x16x44x32
  bcast_S6x112x16x44_S6x112x16x44x1_0_1_2_3 : S6x112x16x44.BroadcastsInDim S6x112x16x44x1 (![0, 1, 2, 3] : Fin 4 → Fin S6x112x16x44x1.rank)
  bcast_S6x16x44x32_S6x1x16x44x32_0_2_3_4 : S6x16x44x32.BroadcastsInDim S6x1x16x44x32 (![0, 2, 3, 4] : Fin 4 → Fin S6x1x16x44x32.rank)
  bcast_S6x112x16x44x1_S6x112x16x44x32_0_1_2_3_4 : S6x112x16x44x1.BroadcastsInDim S6x112x16x44x32 (![0, 1, 2, 3, 4] : Fin 5 → Fin S6x112x16x44x32.rank)
  bcast_S6x1x16x44x32_S6x112x16x44x32_0_1_2_3_4 : S6x1x16x44x32.BroadcastsInDim S6x112x16x44x32 (![0, 1, 2, 3, 4] : Fin 5 → Fin S6x112x16x44x32.rank)
  shapeCasts_S6x112x16x44x32_S1x473088x32 : S6x112x16x44x32.ShapeCasts S1x473088x32
  slices_S1x6x112x16x44x2_S1x6x112x16x44x1_0_0_0_0_0_0 : S1x6x112x16x44x2.Slices ![0, 0, 0, 0, 0, 0] S1x6x112x16x44x1
  shapeCasts_S1x6x112x16x44x1_S1x6x112x16x44 : S1x6x112x16x44x1.ShapeCasts S1x6x112x16x44
  shapeCasts_S1x6x112x16x44_S1x473088 : S1x6x112x16x44.ShapeCasts S1x473088
  slices_S1x6x112x16x44x2_S1x6x112x16x44x1_0_0_0_0_0_1 : S1x6x112x16x44x2.Slices ![0, 0, 0, 0, 0, 1] S1x6x112x16x44x1
  bcast_S1_S1x1_0 : S1.BroadcastsInDim S1x1 (![0] : Fin 1 → Fin S1x1.rank)
  bcast_S_S1x1 : S_.BroadcastsInDim S1x1 (![] : Fin 0 → Fin S1x1.rank)
  bcast_S_S1x473088 : S_.BroadcastsInDim S1x473088 (![] : Fin 0 → Fin S1x473088.rank)
  bcast_S1x1_S1x473088_0_1 : S1x1.BroadcastsInDim S1x473088 (![0, 1] : Fin 2 → Fin S1x473088.rank)
  shapeCasts_S1x473088_S473088 : S1x473088.ShapeCasts S473088
  shapeCasts_S1x473088x32_S473088x32 : S1x473088x32.ShapeCasts S473088x32
  bcast_S_S16384x32 : S_.BroadcastsInDim S16384x32 (![] : Fin 0 → Fin S16384x32.rank)
  bcast_S473088_S473088x1_0 : S473088.BroadcastsInDim S473088x1 (![0] : Fin 1 → Fin S473088x1.rank)
  shapeCasts_S16384x32_S1x128x128x32 : S16384x32.ShapeCasts S1x128x128x32
  transposes_S1x128x128x32_S1x32x128x128_0_3_1_2 : S1x128x128x32.Transposes [0, 3, 1, 2] S1x32x128x128
  scatter_S16384x32_S473088x1_S473088x32_1_0_0_1_wf : ScatterDims.WF S16384x32 S473088x1 S473088x32 [1] [0] [0] 1

variable [Facts₀]

def scatter_S16384x32_S473088x1_S473088x32_1_0_0_1 : ScatterDims S16384x32 S473088x1 S473088x32 where
  updateWindowDims := [1]
  insertedWindowDims := [0]
  scatterDimsToOperandDims := [0]
  indexVectorDim := 1
  wf := scatter_S16384x32_S473088x1_S473088x32_1_0_0_1_wf

class Facts : Prop extends Facts₀ where

variable [Facts]
-- ==== Proof.OuterBlock.lean ====
/-
  What one grid point of the lift writes back. The body multiplies a [1,16,704] block of depth weights, read along a new
  trailing axis, by a [1,704,32] block of context features, read along a new second axis: entry (0, d, p, k) of the
  [1,16,704,32] result is depth (0, d, p) times context (0, p, k). Over the 6 x 7 grid the blocks tile the
  [6,112,704,32] array, so after the region the array holds, at (n, d, p, k), depth (n, d, p) times context (n, p, k)
  of the two arrays the region was launched on.
-/
import proofs.«160746_j38903813767426_1_alg».proof.Proof.Gen.KernelIdeal.Frame
import Idealize.ShloMosaic.Lib.Pipeline.Value

set_option maxRecDepth 16384

noncomputable section

namespace Cert.KernelIdeal.Outer

open Cert.KernelIdeal Cert.KernelIdeal.Gen Idealize.ShloMosaic Idealize.ShloMosaic.TcCoe Idealize.SL.Sem
open Idealize.ShloMosaic.Pipeline (Dat)

variable {F : FTy → Type} [FloatOps F]

/-! ## The body's product at an index -/

/-- The depth block's index under entry `j` of the product: (0, d, p). -/
abbrev rowIdx (j : S1x16x704x32.Idx) : S1x16x704.Idx := fun a => match a with
  | ⟨0, _⟩ => ⟨0, Nat.one_pos⟩
  | ⟨1, _⟩ => ⟨(j 1).val, (j 1).isLt⟩
  | ⟨2, _⟩ => ⟨(j 2).val, (j 2).isLt⟩

/-- The context block's index under entry `j` of the product: (0, p, k). -/
abbrev colIdx (j : S1x16x704x32.Idx) : S1x704x32.Idx := fun a => match a with
  | ⟨0, _⟩ => ⟨0, Nat.one_pos⟩
  | ⟨1, _⟩ => ⟨(j 2).val, (j 2).isLt⟩
  | ⟨2, _⟩ => ⟨(j 3).val, (j 3).isLt⟩

/-- (0, d, p, 0): where the depth block, given a trailing unit axis, is read. -/
abbrev rowMid (j : S1x16x704x32.Idx) : S1x16x704x1.Idx := fun a => match a with
  | ⟨0, _⟩ => ⟨0, Nat.one_pos⟩
  | ⟨1, _⟩ => ⟨(j 1).val, (j 1).isLt⟩
  | ⟨2, _⟩ => ⟨(j 2).val, (j 2).isLt⟩
  | ⟨3, _⟩ => ⟨0, Nat.one_pos⟩

/-- (0, 0, p, k): where the context block, given a unit second axis, is read. -/
abbrev colMid (j : S1x16x704x32.Idx) : S1x1x704x32.Idx := fun a => match a with
  | ⟨0, _⟩ => ⟨0, Nat.one_pos⟩
  | ⟨1, _⟩ => ⟨0, Nat.one_pos⟩
  | ⟨2, _⟩ => ⟨(j 2).val, (j 2).isLt⟩
  | ⟨3, _⟩ => ⟨(j 3).val, (j 3).isLt⟩

/-- The depth operand of the product at `j` is the depth block at (0, d, p). -/
theorem depth_operand (x0 : Vec F S1x16x704 .f32) (j : S1x16x704x32.Idx) :
    broadcastTo S1x16x704x32 (shapeCast S1x16x704x1 (shapeCast S1x16x704 x0 shapeCasts_S1x16x704_S1x16x704)
      shapeCasts_S1x16x704_S1x16x704x1) broadcasts_S1x16x704x1_S1x16x704x32 j = x0 (rowIdx j) := by
  rw [shapeCast_self]
  refine (broadcastTo_apply _ broadcasts_S1x16x704x1_S1x16x704x32 j (rowMid j) (fun a => match a with
    | ⟨0, _⟩ => by show 0 = if (1 : Nat) = 1 then 0 else _; rw [if_pos rfl]
    | ⟨1, _⟩ => by show (j 1).val = if (16 : Nat) = 1 then 0 else (j 1).val; rw [if_neg (by decide)]
    | ⟨2, _⟩ => by show (j 2).val = if (704 : Nat) = 1 then 0 else (j 2).val; rw [if_neg (by decide)]
    | ⟨3, _⟩ => by show 0 = if (1 : Nat) = 1 then 0 else _; rw [if_pos rfl])).trans ?_
  exact shapeCast_apply x0 shapeCasts_S1x16x704_S1x16x704x1 (rowMid j) (rowIdx j)
    (by rewrite [Shape.rowMajor_val_three, Shape.rowMajor_val_four]
        show ((0 * 16 + (j 1).val) * 704 + (j 2).val) = (((0 * 16 + (j 1).val) * 704 + (j 2).val) * 1 + 0); omega)

/-- The context operand of the product at `j` is the context block at (0, p, k). -/
theorem context_operand (x1 : Vec F S1x704x32 .f32) (j : S1x16x704x32.Idx) :
    broadcastTo S1x16x704x32 (shapeCast S1x1x704x32 (shapeCast S1x704x32 x1 shapeCasts_S1x704x32_S1x704x32)
      shapeCasts_S1x704x32_S1x1x704x32) broadcasts_S1x1x704x32_S1x16x704x32 j = x1 (colIdx j) := by
  rw [shapeCast_self]
  refine (broadcastTo_apply _ broadcasts_S1x1x704x32_S1x16x704x32 j (colMid j) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show (j 2).val = if (704 : Nat) = 1 then 0 else (j 2).val; rw [if_neg (by decide)]
    | ⟨3, _⟩ => by show (j 3).val = if (32 : Nat) = 1 then 0 else (j 3).val; rw [if_neg (by decide)])).trans ?_
  exact shapeCast_apply x1 shapeCasts_S1x704x32_S1x1x704x32 (colMid j) (colIdx j)
    (by rewrite [Shape.rowMajor_val_three, Shape.rowMajor_val_four]
        show ((0 * 704 + (j 2).val) * 32 + (j 3).val) = (((0 * 1 + 0) * 704 + (j 2).val) * 32 + (j 3).val); omega)

/-- THE BODY'S PRODUCT AT AN INDEX: depth (0, d, p) times context (0, p, k). -/
theorem product_apply (x0 : Vec F S1x16x704 .f32) (x1 : Vec F S1x704x32 .f32) (j : S1x16x704x32.Idx) :
    k0_pay1 x0 x1 j = FloatOps.mulf (x0 (rowIdx j)) (x1 (colIdx j)) := by
  unfold k0_pay1
  show FloatOps.mulf _ _ = _
  rw [depth_operand x0 j, context_operand x1 j]

/-! ## From blocks to the array -/

variable (m : (ℓ : Loc nD τ sig) → Buf (Elt F) ℓ)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- (n, d, p): the depth array's index under entry (n, d, p, k) of the lifted array. -/
abbrev depthIdx (i : S6x112x704x32.Idx) : S6x112x704.Idx := fun a => match a with
  | ⟨0, _⟩ => ⟨(i 0).val, (i 0).isLt⟩
  | ⟨1, _⟩ => ⟨(i 1).val, (i 1).isLt⟩
  | ⟨2, _⟩ => ⟨(i 2).val, (i 2).isLt⟩

/-- (n, p, k): the context array's index under entry (n, d, p, k) of the lifted array. -/
abbrev ctxIdx (i : S6x112x704x32.Idx) : S6x704x32.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- THE LIFTED ARRAY: entry (n, d, p, k) is depth (n, d, p) times context (n, p, k). -/
def lifted (D : S6x112x704.Idx → Elt F .f32) (C : S6x704x32.Idx → Elt F .f32) : S6x112x704x32.Idx → Elt F .f32 :=
  fun i => FloatOps.mulf (D (depthIdx i)) (C (ctxIdx i))

/-- The printed index maps over the 42 grid points: the depth block moves with the output block on the first two axes,
    the context block on the first; every other block index is 0; and the output's block indices stay in range. -/
theorem index_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 3) = win0_2.index t (0 : Fin 4)
    ∧ win0_1.index t (1 : Fin 3) = 0
    ∧ win0_1.index t (2 : Fin 3) = 0
    ∧ win0_2.index t (2 : Fin 4) = 0
    ∧ win0_2.index t (3 : Fin 4) = 0
    ∧ win0_2.index t (0 : Fin 4) ≤ 5
    ∧ win0_2.index t (1 : Fin 4) ≤ 6 :=
  (by decide +kernel : ∀ t : Fin grid0.N, _)

/-- Every block of the array is some grid point's. -/
theorem index_onto : ∀ (q0 : Fin 6) (q1 : Fin 7), ∃ t : Fin cfg0.N, win0_2.index t = ![q0.val, q1.val, 0, 0] :=
  (by decide +kernel : ∀ (q0 : Fin 6) (q1 : Fin 7), ∃ t : Fin grid0.N, win0_2.index t = ![q0.val, q1.val, 0, 0])

/-- WHAT POINT `t` WRITES BACK is block `t` of the lifted array of the two arrays the region finds. -/
theorem flushed_eq (c : Dev nD) (t : Fin cfg0.N) :
    (dats m 0 c).flushed 2 t = ((cfg0.win 2).blk t).view.read (Elt F) (lifted (V m c main_v11) (V m c main_v13)) := by
  show (cfg0.win 2).cut (grid0.coords t) ((dats m 0 c).after 2 t) = _
  rw [after0_2]
  unfold out0_2
  rw [View.canon_unit_zero zeros4]
  simp only [View.ld_unit_zero (S := S1x16x704) zeros3, View.ld_unit_zero (S := S1x704x32) zeros3]
  obtain ⟨e0, e1, e2, e3, e4, e5, e6, e7, e8, e9⟩ := index_facts t
  funext j
  refine (product_apply (iblk m c 0 t) (iblk m c 1 t) j).trans ?_
  show FloatOps.mulf (V m c main_v11 (((cfg0.win 0).blk t).view.emb (rowIdx j))) (V m c main_v13 (((cfg0.win 1).blk t).view.emb (colIdx j)))
    = FloatOps.mulf (V m c main_v11 (depthIdx (((cfg0.win 2).blk t).view.emb j))) (V m c main_v13 (ctxIdx (((cfg0.win 2).blk t).view.emb j)))
  have hj0 : (j 0).val < 1 := (j 0).isLt
  have h0 : ((cfg0.win 0).blk t).view.emb (rowIdx j) = depthIdx (((cfg0.win 2).blk t).view.emb j) := by
    funext a; apply Fin.ext
    match a with
    | ⟨0, _⟩ => show win0_0.index t (0 : Fin 3) * 1 + 1 * 0 = win0_2.index t (0 : Fin 4) * 1 + 1 * (j 0).val; omega
    | ⟨1, _⟩ => show win0_0.index t (1 : Fin 3) * 16 + 1 * (j 1).val = win0_2.index t (1 : Fin 4) * 16 + 1 * (j 1).val; omega
    | ⟨2, _⟩ => show win0_0.index t (2 : Fin 3) * 704 + 1 * (j 2).val = win0_2.index t (2 : Fin 4) * 704 + 1 * (j 2).val; omega
  have h1 : ((cfg0.win 1).blk t).view.emb (colIdx j) = ctxIdx (((cfg0.win 2).blk t).view.emb j) := by
    funext a; apply Fin.ext
    match a with
    | ⟨0, _⟩ => show win0_1.index t (0 : Fin 3) * 1 + 1 * 0 = win0_2.index t (0 : Fin 4) * 1 + 1 * (j 0).val; omega
    | ⟨1, _⟩ => show win0_1.index t (1 : Fin 3) * 704 + 1 * (j 2).val = win0_2.index t (2 : Fin 4) * 704 + 1 * (j 2).val; omega
    | ⟨2, _⟩ => show win0_1.index t (2 : Fin 3) * 32 + 1 * (j 3).val = win0_2.index t (3 : Fin 4) * 32 + 1 * (j 3).val; omega
  rw [h0, h1]

/-- An index of the array is in point `t`'s block iff each coordinate is in the block's range on its axis. -/
theorem mem_block (t : Fin cfg0.N) (i : S6x112x704x32.Idx) :
    i ∈ ((cfg0.win 2).blk t).view.set ↔ ∀ a : Fin 4, win0_2.index t a * S1x16x704x32.size a ≤ (i a).val ∧ (i a).val < win0_2.index t a * S1x16x704x32.size a + S1x16x704x32.size a := by
  show i ∈ ((View.whole main_v14).slice (win0_2.rect t)).set ↔ _
  rw [View.set_slice_whole, Rect.mem_set_unit]
  exact Iff.rfl

/-- The blocks cover the array: entry (n, d, p, k) lies in the block of the point with block indices (n, d / 16, 0, 0). -/
theorem covered (i : S6x112x704x32.Idx) :
    ∃ t : Fin cfg0.N, (cfg0.win 2).flush t = true ∧ i ∈ ((cfg0.win 2).blk t).view.set := by
  have hi0 : (i 0).val < 6 := (i 0).isLt
  have hi1 : (i 1).val < 112 := (i 1).isLt
  have hi2 : (i 2).val < 704 := (i 2).isLt
  have hi3 : (i 3).val < 32 := (i 3).isLt
  obtain ⟨t, ht⟩ := index_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 704 ≤ (i 2).val ∧ (i 2).val < win0_2.index t (2 : Fin 4) * 704 + 704; omega
  | ⟨3, _⟩ => show win0_2.index t (3 : Fin 4) * 32 ≤ (i 3).val ∧ (i 3).val < win0_2.index t (3 : Fin 4) * 32 + 32; omega

/-- THE ARRAY AFTER THE REGION is the lifted array of the two arrays the region was launched on. -/
theorem final (c : Dev nD) : (dats m 0 c).arrAt 2 cfg0.N = lifted (V m c main_v11) (V m c main_v13) :=
  (dats m 0 c).arrAt_eq_of_cover 2 _ (fun t _ => flushed_eq m c t) covered

end Cert.KernelIdeal.Outer

end
-- ==== Proof.KernelRun.lean ====
/-
  The kernel program's run, read. After the region the result array of the lift holds depth (n, d, p) times
  context (n, p, k) at (n, d, p, k). The host lines after the region read that array in row-major order as 473088
  points of 32 features, compute each point's flat cell id y * 128 + x from the cell coordinates, add every point's
  features into its cell of a zero [16384, 32] table, and read the table as [1, 32, 128, 128]. Here those lines are
  wrapped as ONE function of the points and the coordinates, and the run's result buffer is that function of the
  lifted array.
-/
import proofs.«160746_j38903813767426_1_alg».proof.Proof.OuterBlock
import Idealize.ShloMosaic.Lib.StableHlo.Run

set_option maxRecDepth 16384

noncomputable section

namespace Cert.KernelIdeal.Outer

open Cert.KernelIdeal Cert.KernelIdeal.Gen Idealize.ShloMosaic Idealize.ShloMosaic.TcCoe Idealize.SL.Sem
open Idealize.ShloMosaic.Pipeline (Dat)
open Idealize.ShloMosaic.StableHlo

variable {F : FTy → Type} [FloatOps F]
variable (m : (ℓ : Loc nD τ sig) → Buf (Elt F) ℓ)

/-- The flat cell id of every lifted point, from the (x, y) cell coordinates: y * 128 + x (the batch offset is 0 * 16384),
    as a [473088, 1] table of scatter indices. -/
def cellIds (g : (⟨S1x6x112x16x44x2, .i32⟩ : BufTy).Contents (Elt F)) : (⟨S473088x1, .i32⟩ : BufTy).Contents (Elt F) :=
  broadcastInDim S473088x1 ![0] bcast_S473088_S473088x1_0
    (shapeCast S473088
      (addi
        (addi
          (broadcastInDim S1x473088 ![0, 1] bcast_S1x1_S1x473088_0_1
            (muli (broadcastInDim S1x1 ![0] bcast_S1_S1x1_0 (iotaInDim S1 32 0))
              (broadcastInDim S1x1 ![] bcast_S_S1x1 (constantI S_ 32 16384#32))))
          (muli
            (shapeCast S1x473088
              (shapeCast S1x6x112x16x44
                (extractStridedSlice S1x6x112x16x44x1 ![0, 0, 0, 0, 0, 1] g slices_S1x6x112x16x44x2_S1x6x112x16x44x1_0_0_0_0_0_1)
                shapeCasts_S1x6x112x16x44x1_S1x6x112x16x44)
              shapeCasts_S1x6x112x16x44_S1x473088)
            (broadcastInDim S1x473088 ![] bcast_S_S1x473088 (constantI S_ 32 128#32))))
        (shapeCast S1x473088
          (shapeCast S1x6x112x16x44
            (extractStridedSlice S1x6x112x16x44x1 ![0, 0, 0, 0, 0, 0] g slices_S1x6x112x16x44x2_S1x6x112x16x44x1_0_0_0_0_0_0)
            shapeCasts_S1x6x112x16x44x1_S1x6x112x16x44)
          shapeCasts_S1x6x112x16x44_S1x473088))
      shapeCasts_S1x473088_S473088)

/-- VOXEL POOLING: the rows of the [473088, 32] points summed into the 128 x 128 cells their ids name, from zero, and
    the [16384, 32] table read as [1, 32, 128, 128]. -/
def pool (g : (⟨S1x6x112x16x44x2, .i32⟩ : BufTy).Contents (Elt F)) (u : (⟨S473088x32, .f32⟩ : BufTy).Contents (Elt F)) :
    (⟨S1x32x128x128, .f32⟩ : BufTy).Contents (Elt F) :=
  transpose S1x32x128x128 [0, 3, 1, 2]
    (shapeCast S1x128x128x32
      (Host.scatterAdd scatter_S16384x32_S473088x1_S473088x32_1_0_0_1
        (broadcastInDim S16384x32 ![] bcast_S_S16384x32 (constant S_ .f32 0x00000000#32)) (cellIds g) u)
      shapeCasts_S16384x32_S1x128x128x32)
    transposes_S1x128x128x32_S1x32x128x128_0_3_1_2

/-- The lifted array's entries in row-major order, 32 to a row: the points. -/
def points (A : S6x112x704x32.Idx → Elt F .f32) : (⟨S473088x32, .f32⟩ : BufTy).Contents (Elt F) :=
  shapeCast S473088x32 (shapeCast S1x473088x32 A shapeCasts_S6x112x704x32_S1x473088x32) shapeCasts_S1x473088x32_S473088x32

/-- The host lines after the region leave, in the result buffer, the pooling of the lifted array's points. -/
theorem tail_eq (c : Dev nD) :
    Pipeline.afterTail₀ cfgs (dats m) 0 (V0 m) [hostOps1] c main_v37
      = pool (m ((c : Thread nD τ).loc main_arg2)) (points (lifted (V m c main_v11) (V m c main_v13))) := by
  have h14 : Pipeline.withArrays (cfgs 0).spec c (V0 m c) (fun w => (dats m 0 c).arrAt w (cfgs 0).N) (Proc.devRef .tc main_v14)
      = (dats m 0 c).arrAt 2 cfg0.N := Pipeline.withArrays_arr spec0 launch0.win.arr_inj c _ _ 2
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v37) = _
  after_results
  rw [h14, h2, final m c]
  rfl

/-- THE KERNEL'S RUN, READ: every weakly fair execution terminates with the result buffer at the pooling of the lifted
    array's points — the lift of the two arrays the host lines before the region wrote — and the arguments unchanged. -/
theorem run (ρ : Dev nD → PrngReg) :
    θ_run defs (onTc (τ := τ) (main (F := F))) ⟨m, fun _ => 0, ρ⟩ (fun r => ∀ c : Dev nD,
      r.2.mem ((c.tc : Thread nD τ).loc main_v37)
        = pool (m ((c.tc : Thread nD τ).loc main_arg2)) (points (lifted (V m c main_v11) (V m c main_v13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v37 (Pipeline.mem_restRefs_of main_v37 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Outer

end
-- ==== Proof.PointsAt.lean ====
/-
  One point of the lifted array, read back to the softmax and the context features. Point r = ((n * 112 + d) * 16 + h) * 44 + w
  of the 473088, feature k, is entry (n, d, h * 44 + w, k) of the lifted array: the depth array at (n, d, h * 44 + w) — the
  softmax at (n, d, h, w), its last two axes read as one — times the context array at (n, h * 44 + w, k) — the transposed
  features at (n, h, w, k), that is the features at (n, k, h, w).
-/
import proofs.«160746_j38903813767426_1_alg».proof.Proof.KernelRun

set_option maxRecDepth 16384

noncomputable section

namespace Cert.KernelIdeal.Outer

open Cert.KernelIdeal Cert.KernelIdeal.Gen Idealize.ShloMosaic Idealize.ShloMosaic.TcCoe Idealize.SL.Sem

variable {F : FTy → Type} [FloatOps F]

/-- (n, d, h, w) of point r: r / 78848, r / 704 % 112, r / 44 % 16, r % 44. -/
abbrev pixelOf (i : S473088x32.Idx) : S6x112x16x44.Idx := fun a => match a with
  | ⟨0, _⟩ => ⟨(i 0).val / 78848, by have h0 : (i 0).val < 473088 := (i 0).isLt; show (i 0).val / 78848 < 6; omega⟩
  | ⟨1, _⟩ => ⟨(i 0).val / 704 % 112, by show (i 0).val / 704 % 112 < 112; omega⟩
  | ⟨2, _⟩ => ⟨(i 0).val / 44 % 16, by show (i 0).val / 44 % 16 < 16; omega⟩
  | ⟨3, _⟩ => ⟨(i 0).val % 44, by show (i 0).val % 44 < 44; omega⟩

/-- (n, k, h, w) of point r and feature k. -/
abbrev featureOf (i : S473088x32.Idx) : S6x32x16x44.Idx := fun a => match a with
  | ⟨0, _⟩ => ⟨(i 0).val / 78848, by have h0 : (i 0).val < 473088 := (i 0).isLt; show (i 0).val / 78848 < 6; omega⟩
  | ⟨1, _⟩ => ⟨(i 1).val, (i 1).isLt⟩
  | ⟨2, _⟩ => ⟨(i 0).val / 44 % 16, by show (i 0).val / 44 % 16 < 16; omega⟩
  | ⟨3, _⟩ => ⟨(i 0).val % 44, by show (i 0).val % 44 < 44; omega⟩

/-- (0, r, k). -/
abbrev rowOf (i : S473088x32.Idx) : S1x473088x32.Idx := fun a => match a with
  | ⟨0, _⟩ => ⟨0, Nat.one_pos⟩
  | ⟨1, _⟩ => ⟨(i 0).val, (i 0).isLt⟩
  | ⟨2, _⟩ => ⟨(i 1).val, (i 1).isLt⟩

/-- (n, d, h * 44 + w, k) of point r and feature k: r / 78848, r / 704 % 112, r % 704, k. -/
abbrev entryOf (i : S473088x32.Idx) : S6x112x704x32.Idx := fun a => match a with
  | ⟨0, _⟩ => ⟨(i 0).val / 78848, by have h0 : (i 0).val < 473088 := (i 0).isLt; show (i 0).val / 78848 < 6; omega⟩
  | ⟨1, _⟩ => ⟨(i 0).val / 704 % 112, by show (i 0).val / 704 % 112 < 112; omega⟩
  | ⟨2, _⟩ => ⟨(i 0).val % 704, by show (i 0).val % 704 < 704; omega⟩
  | ⟨3, _⟩ => ⟨(i 1).val, (i 1).isLt⟩

/-- (n, h, w, k) of point r and feature k. -/
abbrev transposedOf (i : S473088x32.Idx) : S6x16x44x32.Idx := fun a => match a with
  | ⟨0, _⟩ => ⟨(i 0).val / 78848, by have h0 : (i 0).val < 473088 := (i 0).isLt; show (i 0).val / 78848 < 6; omega⟩
  | ⟨1, _⟩ => ⟨(i 0).val / 44 % 16, by show (i 0).val / 44 % 16 < 16; omega⟩
  | ⟨2, _⟩ => ⟨(i 0).val % 44, by show (i 0).val % 44 < 44; omega⟩
  | ⟨3, _⟩ => ⟨(i 1).val, (i 1).isLt⟩

/-- A point of any [6,112,704,32] array is its entry (n, d, h * 44 + w, k). -/
theorem points_apply (A : S6x112x704x32.Idx → Elt F .f32) (i : S473088x32.Idx) : points A i = A (entryOf i) := by
  have h0 : (i 0).val < 473088 := (i 0).isLt
  have h1 : (i 1).val < 32 := (i 1).isLt
  unfold points
  refine (shapeCast_apply _ shapeCasts_S1x473088x32_S473088x32 i (rowOf i)
    (by rewrite [Shape.rowMajor_val_three, Shape.rowMajor_val_two]
        show (0 * 473088 + (i 0).val) * 32 + (i 1).val = (i 0).val * 32 + (i 1).val; omega)).trans ?_
  exact shapeCast_apply A shapeCasts_S6x112x704x32_S1x473088x32 (rowOf i) (entryOf i)
    (by rewrite [Shape.rowMajor_val_four, Shape.rowMajor_val_three]
        show (((i 0).val / 78848 * 112 + (i 0).val / 704 % 112) * 704 + (i 0).val % 704) * 32 + (i 1).val
          = (0 * 473088 + (i 0).val) * 32 + (i 1).val; omega)

/-- The depth array at (n, d, h * 44 + w) is the softmax at (n, d, h, w). -/
theorem depth_at (S : S6x112x16x44.Idx → Elt F .f32) (i : S473088x32.Idx) :
    shapeCast S6x112x704 S shapeCasts_S6x112x16x44_S6x112x704 (depthIdx (entryOf i)) = S (pixelOf i) := by
  have h0 : (i 0).val < 473088 := (i 0).isLt
  exact shapeCast_apply S shapeCasts_S6x112x16x44_S6x112x704 (depthIdx (entryOf i)) (pixelOf i)
    (by rewrite [Shape.rowMajor_val_four, Shape.rowMajor_val_three]
        show (((i 0).val / 78848 * 112 + (i 0).val / 704 % 112) * 16 + (i 0).val / 44 % 16) * 44 + (i 0).val % 44
          = ((i 0).val / 78848 * 112 + (i 0).val / 704 % 112) * 704 + (i 0).val % 704; omega)

/-- The context array at (n, h * 44 + w, k) is the features at (n, k, h, w). -/
theorem context_at (X : S6x32x16x44.Idx → Elt F .f32) (i : S473088x32.Idx) :
    shapeCast S6x704x32 (transpose S6x16x44x32 [0, 2, 3, 1] X transposes_S6x32x16x44_S6x16x44x32_0_2_3_1)
      shapeCasts_S6x16x44x32_S6x704x32 (ctxIdx (entryOf i)) = X (featureOf i) := by
  have h0 : (i 0).val < 473088 := (i 0).isLt
  refine (shapeCast_apply _ shapeCasts_S6x16x44x32_S6x704x32 (ctxIdx (entryOf i)) (transposedOf i)
    (by rewrite [Shape.rowMajor_val_four, Shape.rowMajor_val_three]
        show (((i 0).val / 78848 * 16 + (i 0).val / 44 % 16) * 44 + (i 0).val % 44) * 32 + (i 1).val
          = ((i 0).val / 78848 * 704 + (i 0).val % 704) * 32 + (i 1).val; omega)).trans ?_
  exact transpose_apply [0, 2, 3, 1] X transposes_S6x32x16x44_S6x16x44x32_0_2_3_1 (transposedOf i) (featureOf i) (fun b => match b with
    | ⟨0, _⟩ => rfl
    | ⟨1, _⟩ => rfl
    | ⟨2, _⟩ => rfl
    | ⟨3, _⟩ => rfl)

/-- A POINT OF THE LIFT: the softmax at (n, d, h, w) times the features at (n, k, h, w). -/
theorem point_eq (S : S6x112x16x44.Idx → Elt F .f32) (X : S6x32x16x44.Idx → Elt F .f32) (i : S473088x32.Idx) :
    points (lifted (shapeCast S6x112x704 S shapeCasts_S6x112x16x44_S6x112x704)
      (shapeCast S6x704x32 (transpose S6x16x44x32 [0, 2, 3, 1] X transposes_S6x32x16x44_S6x16x44x32_0_2_3_1)
        shapeCasts_S6x16x44x32_S6x704x32)) i
      = FloatOps.mulf (S (pixelOf i)) (X (featureOf i)) := by
  rw [points_apply]
  unfold lifted
  rw [depth_at S i, context_at X i]

end Cert.KernelIdeal.Outer

end
-- ==== Proof.Bridge.lean ====
/-
  The two programs compute one result. Both take the softmax of the height logits over the 112 bins by the same host
  lines. The reference multiplies the softmax at (n, d, h, w) by the features at (n, k, h, w), as a [6,112,16,44,32]
  array, and reads it in row-major order as 473088 points of 32 features; the kernel program's lifted array, read the same
  way, has at point ((n * 112 + d) * 16 + h) * 44 + w, feature k, that very product (the depth and context arrays are the
  softmax and the transposed features with the two pixel axes read as one). So the two tables of points are equal
  entry by entry, with no law of arithmetic used: the factors and their order agree. The cell ids come from the same
  coordinates by the same lines, and the pooling after them is the same function of points and coordinates.
-/
import proofs.«160746_j38903813767426_1_alg».proof.Proof.PointsAt
import proofs.«160746_j38903813767426_1_alg».proof.Proof.Gen.ReferenceIdeal.Read

set_option maxRecDepth 16384

noncomputable section

namespace Cert.Bridge

open Idealize.ShloMosaic Idealize.ShloMosaic.TcCoe Idealize.SL.Sem Idealize.ShloMosaic.StableHlo
open Cert.KernelIdeal.Outer

variable {F : FTy → Type} [FloatOps F]

/-! ## The reference's points -/

/-- Through the reference's two reshapes and two broadcasts, point r's softmax factor sits at (n, d, h, w). -/
theorem ref_pixel (i : Cert.ReferenceIdeal.S473088x32.Idx) :
    Cert.ReferenceIdeal.Read.idx_main_v12 (Cert.ReferenceIdeal.Read.idx_main_v14
      (Cert.ReferenceIdeal.Read.idx_main_v17 (Cert.ReferenceIdeal.Read.idx_main_v34 i))) = pixelOf i := by
  have h0 : (i 0).val < 473088 := (i 0).isLt
  have h1 : (i 1).val < 32 := (i 1).isLt
  funext a; apply Fin.ext
  match a with
  | ⟨0, _⟩ => show ((0 * 473088 + ((i 0).val * 32 + (i 1).val) / 32 % 473088) * 32 + ((i 0).val * 32 + (i 1).val) % 32) / 2523136 = (i 0).val / 78848; omega
  | ⟨1, _⟩ => show ((0 * 473088 + ((i 0).val * 32 + (i 1).val) / 32 % 473088) * 32 + ((i 0).val * 32 + (i 1).val) % 32) / 22528 % 112 = (i 0).val / 704 % 112; omega
  | ⟨2, _⟩ => show ((0 * 473088 + ((i 0).val * 32 + (i 1).val) / 32 % 473088) * 32 + ((i 0).val * 32 + (i 1).val) % 32) / 1408 % 16 = (i 0).val / 44 % 16; omega
  | ⟨3, _⟩ => show ((0 * 473088 + ((i 0).val * 32 + (i 1).val) / 32 % 473088) * 32 + ((i 0).val * 32 + (i 1).val) % 32) / 32 % 44 = (i 0).val % 44; omega

/-- Through the reference's two reshapes, two broadcasts and the transpose, its feature factor sits at (n, k, h, w). -/
theorem ref_feature (i : Cert.ReferenceIdeal.S473088x32.Idx) :
    Cert.ReferenceIdeal.Read.idx_main_v11 (Cert.ReferenceIdeal.Read.idx_main_v13 (Cert.ReferenceIdeal.Read.idx_main_v15
      (Cert.ReferenceIdeal.Read.idx_main_v17 (Cert.ReferenceIdeal.Read.idx_main_v34 i)))) = featureOf i := by
  have h0 : (i 0).val < 473088 := (i 0).isLt
  have h1 : (i 1).val < 32 := (i 1).isLt
  funext a; apply Fin.ext
  match a with
  | ⟨0, _⟩ => show ((0 * 473088 + ((i 0).val * 32 + (i 1).val) / 32 % 473088) * 32 + ((i 0).val * 32 + (i 1).val) % 32) / 2523136 = (i 0).val / 78848; omega
  | ⟨1, _⟩ => show ((0 * 473088 + ((i 0).val * 32 + (i 1).val) / 32 % 473088) * 32 + ((i 0).val * 32 + (i 1).val) % 32) % 32 = (i 1).val; omega
  | ⟨2, _⟩ => show ((0 * 473088 + ((i 0).val * 32 + (i 1).val) / 32 % 473088) * 32 + ((i 0).val * 32 + (i 1).val) % 32) / 1408 % 16 = (i 0).val / 44 % 16; omega
  | ⟨3, _⟩ => show ((0 * 473088 + ((i 0).val * 32 + (i 1).val) / 32 % 473088) * 32 + ((i 0).val * 32 + (i 1).val) % 32) / 32 % 44 = (i 0).val % 44; omega

/-- THE POINTS AGREE: the reference's flattened product is the points of the lift of the softmax and the features. -/
theorem points_eq (x0 : (⟨Cert.ReferenceIdeal.S6x112x16x44, .f32⟩ : BufTy).Contents (Elt F))
    (x1 : (⟨Cert.ReferenceIdeal.S6x32x16x44, .f32⟩ : BufTy).Contents (Elt F)) :
    Cert.ReferenceIdeal.Read.val_main_v34 (F := F) x0 x1
      = points (lifted
          (shapeCast Cert.KernelIdeal.S6x112x704 (Cert.ReferenceIdeal.Read.val_main_v10 (F := F) x0)
            Cert.KernelIdeal.Facts₀.shapeCasts_S6x112x16x44_S6x112x704)
          (shapeCast Cert.KernelIdeal.S6x704x32
            (transpose Cert.KernelIdeal.S6x16x44x32 [0, 2, 3, 1] x1 Cert.KernelIdeal.Facts₀.transposes_S6x32x16x44_S6x16x44x32_0_2_3_1)
            Cert.KernelIdeal.Facts₀.shapeCasts_S6x16x44x32_S6x704x32)) := by
  funext i
  rw [Cert.ReferenceIdeal.Read.val_main_v34_apply, Cert.ReferenceIdeal.Read.val_main_v17_apply,
    Cert.ReferenceIdeal.Read.val_main_v16_apply, Cert.ReferenceIdeal.Read.val_main_v14_apply,
    Cert.ReferenceIdeal.Read.val_main_v12_apply, Cert.ReferenceIdeal.Read.val_main_v15_apply,
    Cert.ReferenceIdeal.Read.val_main_v13_apply, Cert.ReferenceIdeal.Read.val_main_v11_apply, ref_pixel, ref_feature]
  exact (point_eq (Cert.ReferenceIdeal.Read.val_main_v10 (F := F) x0) x1 i).symm

/-! ## The arrays the region is launched on -/

variable (m : (ℓ : Loc Cert.KernelIdeal.nD Cert.KernelIdeal.τ Cert.KernelIdeal.sig) → Buf (Elt F) ℓ)

/-- The depth array: the softmax of the logits (the same host lines as the reference's), pixel axes read as one. -/
theorem depth_array (c : Dev Cert.KernelIdeal.nD) :
    Cert.KernelIdeal.Gen.V m c Cert.KernelIdeal.main_v11
      = shapeCast Cert.KernelIdeal.S6x112x704
          (Cert.ReferenceIdeal.Read.val_main_v10 (F := F) (m ((c : Thread Cert.KernelIdeal.nD Cert.KernelIdeal.τ).loc Cert.KernelIdeal.main_arg0)))
          Cert.KernelIdeal.Facts₀.shapeCasts_S6x112x16x44_S6x112x704 := by
  show StableHlo.after Cert.KernelIdeal.Gen.hostOps0 (fun b => m (c, b)) (Proc.devRef .tc Cert.KernelIdeal.main_v11) = _
  after_results
  rfl

/-- The context array: the features with the feature axis moved last, pixel axes read as one. -/
theorem context_array (c : Dev Cert.KernelIdeal.nD) :
    Cert.KernelIdeal.Gen.V m c Cert.KernelIdeal.main_v13
      = shapeCast Cert.KernelIdeal.S6x704x32
          (transpose Cert.KernelIdeal.S6x16x44x32 [0, 2, 3, 1]
            (m ((c : Thread Cert.KernelIdeal.nD Cert.KernelIdeal.τ).loc Cert.KernelIdeal.main_arg1))
            Cert.KernelIdeal.Facts₀.transposes_S6x32x16x44_S6x16x44x32_0_2_3_1)
          Cert.KernelIdeal.Facts₀.shapeCasts_S6x16x44x32_S6x704x32 := by
  show StableHlo.after Cert.KernelIdeal.Gen.hostOps0 (fun b => m (c, b)) (Proc.devRef .tc Cert.KernelIdeal.main_v13) = _
  after_results
  rfl

/-! ## The results -/

/-- The reference's result is the pooling of its points by the cell ids of the coordinates. -/
theorem ref_result (x0 : (⟨Cert.ReferenceIdeal.S6x112x16x44, .f32⟩ : BufTy).Contents (Elt F))
    (x1 : (⟨Cert.ReferenceIdeal.S6x32x16x44, .f32⟩ : BufTy).Contents (Elt F))
    (x2 : (⟨Cert.ReferenceIdeal.S1x6x112x16x44x2, .i32⟩ : BufTy).Contents (Elt F)) :
    Cert.ReferenceIdeal.Read.val_main_v39 (F := F) x0 x1 x2 = pool x2 (Cert.ReferenceIdeal.Read.val_main_v34 (F := F) x0 x1) := rfl

/-- THE RESULTS AGREE: the reference's result of the kernel program's arguments is the kernel program's result. -/
theorem result_eq (c : Dev Cert.KernelIdeal.nD) :
    Cert.ReferenceIdeal.Read.val_main_v39 (F := F)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
      = pool (m ((c : Thread Cert.KernelIdeal.nD Cert.KernelIdeal.τ).loc Cert.KernelIdeal.main_arg2))
          (points (lifted (Cert.KernelIdeal.Gen.V m c Cert.KernelIdeal.main_v11) (Cert.KernelIdeal.Gen.V m c Cert.KernelIdeal.main_v13))) := by
  rw [depth_array m c, context_array m c, ← points_eq]
  exact ref_result _ _ _

end Cert.Bridge

end
-- ==== Proof.lean ====
/-
  Lift-splat voxel pooling: the kernel program against its reference, over the extended reals.

  Both programs take the softmax of the height logits over the 112 bins, multiply the softmax at (n, d, h, w) by the
  context features at (n, k, h, w), read the products in row-major order as 473088 points of 32 features, and add each
  point's features into the cell y * 128 + x of a 128 x 128 grid that its integer coordinates name. The kernel program
  forms the products inside one pipelined region, block by block over a 6 x 7 grid, from a [6,112,704] depth array and a
  [6,704,32] context array (the softmax and the transposed features with the two pixel axes read as one); the reference
  forms them by two broadcasts and one product on a [6,112,16,44,32] array. Every entry of the two tables of points is
  the same product of the same two factors in the same order, so no law of arithmetic, and no finiteness of the inputs,
  is used; the pooling after it is one function of the points and the coordinates, shared by both.

  The frames of the two kernel programs are the generated ones; the reference's frame is its run with the result dropped;
  the idealization rewrote nothing.
-/
import proofs.«160746_j38903813767426_1_alg».proof.Defs
import proofs.«160746_j38903813767426_1_alg».proof.Proof.Gen.Kernel
import proofs.«160746_j38903813767426_1_alg».proof.Proof.Gen.Kernel.Skeleton
import proofs.«160746_j38903813767426_1_alg».proof.Proof.Gen.Kernel.Launch
import proofs.«160746_j38903813767426_1_alg».proof.Proof.Gen.Kernel.Points
import proofs.«160746_j38903813767426_1_alg».proof.Proof.Gen.Kernel.Frame
import proofs.«160746_j38903813767426_1_alg».proof.Proof.Gen.KernelIdeal
import proofs.«160746_j38903813767426_1_alg».proof.Proof.Gen.KernelIdeal.Skeleton
import proofs.«160746_j38903813767426_1_alg».proof.Proof.Gen.KernelIdeal.Launch
import proofs.«160746_j38903813767426_1_alg».proof.Proof.Gen.KernelIdeal.Points
import proofs.«160746_j38903813767426_1_alg».proof.Proof.Gen.KernelIdeal.Frame
import proofs.«160746_j38903813767426_1_alg».proof.Proof.Gen.ReferenceIdeal
import proofs.«160746_j38903813767426_1_alg».proof.Proof.Gen.ReferenceIdeal.Run
import proofs.«160746_j38903813767426_1_alg».proof.Proof.Gen.ReferenceIdeal.Read
import proofs.«160746_j38903813767426_1_alg».proof.Proof.Gen.Pre_finite_inputs
import proofs.«160746_j38903813767426_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the pooling of the lift's points: the kernel
    program by its run, the reference because its points are the lift's and its pooling the same function. -/
theorem algebraic : Cert.algebraic_KernelIdeal_ReferenceIdeal := by
  intro m ρ m' ρ' _ hagree
  refine ⟨_, Cert.KernelIdeal.Outer.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v39_eq (F := Ideal) _ _ _).trans ?_
  rw [(hagree c).1, (hagree c).2.1, (hagree c).2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
